-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S10000x1024 : Shape := ⟨2, ![10000, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_

variable [Facts]

def fn {F : FTy → Type} [FloatOps F] (main_arg0 : FVec F S4096x1024 .f32) (main_arg1 : FVec F S10000x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S10000x1024 .f32 := Host.absf main_arg1
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  main_v8
-- ==== Kernel.lean ====
abbrev S4096x1024 : Shape := ⟨2, ![4096, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S4096x10000 : Shape := ⟨2, ![4096, 10000]⟩
abbrev S512x1024 : Shape := ⟨2, ![512, 1024]⟩
abbrev S1280x1024 : Shape := ⟨2, ![1280, 1024]⟩
abbrev S1x1280 : Shape := ⟨2, ![1, 1280]⟩
abbrev S512x1280 : Shape := ⟨2, ![512, 1280]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S10000x1024, .f32⟩
  | .hbm, ⟨2, _⟩ => ⟨S10000x1024, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S1x10000, .f32⟩
  | .hbm, ⟨7, _⟩ => ⟨S4096x10000, .f32⟩
  | .local _ .vmem, ⟨0, _⟩ => ⟨S512x1024, .f32⟩
  | .local _ .vmem, ⟨1, _⟩ => ⟨S512x1024, .f32⟩
  | .local _ .vmem, ⟨2, _⟩ => ⟨S1280x1024, .f32⟩
  | .local _ .vmem, ⟨3, _⟩ => ⟨S1280x1024, .f32⟩
  | .local _ .vmem, ⟨4, _⟩ => ⟨S1x1280, .f32⟩
  | .local _ .vmem, ⟨5, _⟩ => ⟨S1x1280, .f32⟩
  | .local _ .vmem, ⟨6, _⟩ => ⟨S512x1280, .f32⟩
  | .local _ .vmem, ⟨7, _⟩ => ⟨S512x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S10000x1024_S10000_d1 : S10000x1024.ReducesTo [1] S10000
  h_S_ : 0 < S_.numel
  bcast_S10000_S10000x1_0 : S10000.BroadcastsInDim S10000x1 (![0] : Fin 1 → Fin S10000x1.rank)
  transposes_S10000x1_S1x10000_1_0 : S10000x1.Transposes [1, 0] S1x10000
  inb_S512x1024_S512x1024_0_0 : ∀ a, (![0, 0] : Fin 2 → Nat) a + S512x1024.size a ≤ S512x1024.size a
  h_S512x1024 : 0 < S512x1024.numel
  inb_S1280x1024_S1280x1024_0_0 : ∀ a, (![0, 0] : Fin 2 → Nat) a + S1280x1024.size a ≤ S1280x1024.size a
  h_S1280x1024 : 0 < S1280x1024.numel
  reduces_S512x1024_S512 : S512x1024.Reduces [1] S512
  shapeCasts_S512_S512x1 : S512.ShapeCasts S512x1
  bitsLt_bf16_f32 : FTy.bits .bf16 < FTy.bits .f32
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S512x1_S512x1280 : S512x1.Broadcasts S512x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  dot_S512x1024_S1280x1024_S512x1280_1_1_0_0_n_n_wf : DotDims.WF S512x1024 S1280x1024 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1280x1024.size a < S10000x1024.size a
  hwx0_1 : ∀ i : grid0.Coords, EltTy.bits .f32 = 32 ∨ (Rect.unit (s := S10000x1024) (fun a => cc0_transform_1 i a * S1280x1024.size a) (fun a => (Pipeline.Clip.of (cc0_transform_1 i a) (S1280x1024.size a) (S10000x1024.size a)).extent (S1280x1024.size a)) fun a => Pipeline.Clip.inb (Pipeline.Clip.ok_of (hstart0_1 i a))).WholeWords (EltTy.packing .f32)
  hwxs0_1 : ∀ i : grid0.Coords, EltTy.bits .f32 = 32 ∨ (Rect.unit (s := S1280x1024) (fun _ => 0) (fun a => (Pipeline.Clip.of (cc0_transform_1 i a) (S1280x1024.size a) (S10000x1024.size a)).extent (S1280x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1280.size a < S1x10000.size a
  hwx0_2 : ∀ i : grid0.Coords, EltTy.bits .f32 = 32 ∨ (Rect.unit (s := S1x10000) (fun a => cc0_transform_2 i a * S1x1280.size a) (fun a => (Pipeline.Clip.of (cc0_transform_2 i a) (S1x1280.size a) (S1x10000.size a)).extent (S1x1280.size a)) fun a => Pipeline.Clip.inb (Pipeline.Clip.ok_of (hstart0_2 i a))).WholeWords (EltTy.packing .f32)
  hwxs0_2 : ∀ i : grid0.Coords, EltTy.bits .f32 = 32 ∨ (Rect.unit (s := S1x1280) (fun _ => 0) (fun a => (Pipeline.Clip.of (cc0_transform_2 i a) (S1x1280.size a) (S1x10000.size a)).extent (S1x1280.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x1280.size a < S4096x10000.size a
  hwx0_3 : ∀ i : grid0.Coords, EltTy.bits .f32 = 32 ∨ (Rect.unit (s := S4096x10000) (fun a => cc0_transform_3 i a * S512x1280.size a) (fun a => (Pipeline.Clip.of (cc0_transform_3 i a) (S512x1280.size a) (S4096x10000.size a)).extent (S512x1280.size a)) fun a => Pipeline.Clip.inb (Pipeline.Clip.ok_of (hstart0_3 i a))).WholeWords (EltTy.packing .f32)
  hwxs0_3 : ∀ i : grid0.Coords, EltTy.bits .f32 = 32 ∨ (Rect.unit (s := S512x1280) (fun _ => 0) (fun a => (Pipeline.Clip.of (cc0_transform_3 i a) (S512x1280.size a) (S4096x10000.size a)).extent (S512x1280.size a)) fun a => (Nat.zero_add _).trans_le (Pipeline.Clip.extent_le (Pipeline.Clip.ok_of (hstart0_3 i a)))).WholeWords (EltTy.packing .f32)

variable [Facts₀]

def dot_S512x1024_S1280x1024_S512x1280_1_1_0_0_n_n : DotDims S512x1024 S1280x1024 S512x1280 where
  lhsContracting := [1]
  rhsContracting := [1]
  lhsNonContracting := [0]
  rhsNonContracting := [0]
  lhsBatch := []
  rhsBatch := []
  wf := dot_S512x1024_S1280x1024_S512x1280_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1280x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S1x1280.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v4) S512x1280.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S10000x1024 : Shape := ⟨2, ![10000, 1024]⟩
abbrev S_ : Shape := ⟨0, ![]⟩
abbrev S4096 : Shape := ⟨1, ![4096]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S10000x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S10000x1024, .f32⟩
  | .hbm, ⟨7, _⟩ => ⟨S_, .f32⟩
  | .hbm, ⟨8, _⟩ => ⟨S10000, .f32⟩
  | .hbm, ⟨9, _⟩ => ⟨S1x10000, .f32⟩
  | .hbm, ⟨10, _⟩ => ⟨S4096x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S_, .f32⟩
  | .hbm, ⟨15, _⟩ => ⟨S4096x10000, .f32⟩
  | .hbm, ⟨16, _⟩ => ⟨S4096x10000, .f32⟩
  | .hbm, ⟨17, _⟩ => ⟨S4096x10000, .f32⟩
  | .hbm, ⟨18, _⟩ => ⟨S_, .f32⟩
  | .hbm, ⟨19, _⟩ => ⟨S4096x10000, .f32⟩
  | .hbm, ⟨20, _⟩ => ⟨S4096x10000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  reducesTo_S10000x1024_S10000_d1 : S10000x1024.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  dot_S4096x1024_S10000x1024_S4096x10000_1_1_0_0_n_n_wf : DotDims.WF S4096x1024 S10000x1024 S4096x10000 [1] [1] [0] [0] [] []

variable [Facts₀]

def dot_S4096x1024_S10000x1024_S4096x10000_1_1_0_0_n_n : DotDims S4096x1024 S10000x1024 S4096x10000 where
  lhsContracting := [1]
  rhsContracting := [1]
  lhsNonContracting := [0]
  rhsNonContracting := [0]
  lhsBatch := []
  rhsBatch := []
  wf := dot_S4096x1024_S10000x1024_S4096x10000_1_1_0_0_n_n_wf

class Facts : Prop extends Facts₀ where

variable [Facts]
-- ==== Proof.BodyKernel.lean ====
/-
  The kernel body, run once on whole staging buffers.

  The body loads its three input staging buffers whole, computes one value from them, and stores that value over
  the whole output staging buffer. So whatever the four buffers hold when it starts, it ends with the three inputs'
  buffers unchanged and the output's holding the body's arithmetic applied to the three inputs' contents.
  Nothing here depends on what the contents are: the statement is at any float instance.
-/
import proofs.«100870_j55800215110096_1_alg».proof.Proof.Gen.Kernel.Frame
import proofs.«100870_j55800215110096_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle of the output's staging buffer: the one store goes through it. -/
abbrev rOut : Rect S512x1280 := Rect.unit (s := S512x1280) ![0, 0] S512x1280.size inb_S512x1280_S512x1280_0_0

theorem zeros2 : (![0, 0] : Fin 2 → Nat) = fun _ => 0 := funext fun a => by fin_cases a <;> rfl

/-- One store through the whole-buffer rectangle covers the buffer. -/
theorem cover_out (p0 : Vec F S512x1280 .f32) (y : S512x1280.Idx) :
    ∃ pc ∈ ([⟨rOut, p0⟩] : List (View.Piece (Elt F) S512x1280 .f32)), y ∈ pc.1.set :=
  View.cover_of_tiled [⟨rOut, p0⟩] S512x1280.size (by rfl) y

set_option maxHeartbeats 1000000 in
/-- The body on whole staging memrefs: the inputs' at contents `x0`, `x1`, `x2` and the output's at anything; it
    returns with the inputs' as they were and the output's at the body's value of `x0`, `x1`, `x2`. -/
theorem sound_kernel (c : Dev nD) (E : Set ℕ) (i : grid0.Coords)
    (arg2 : Memref sig .tc .vmem S512x1024 .f32) (harg2 : arg2.IsWhole) (arg3 : Memref sig .tc .vmem S1280x1024 .f32) (harg3 : arg3.IsWhole)
    (arg4 : Memref sig .tc .vmem S1x1280 .f32) (harg4 : arg4.IsWhole) (arg5 : Memref sig .tc .vmem S512x1280 .f32) (harg5 : arg5.IsWhole)
    (x0 : Vec F S512x1024 .f32) (x1 : Vec F S1280x1024 .f32) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x1 x2)) -∗ K ⟨⟩))
      ⊢ wp frame (wpE (defs₀ (F := F)) Variants.none c none) E (cc0__cdist_kernel i arg2 harg2 arg3 harg3 arg4 harg4 arg5 harg5) K := by
  simp only [cc0__cdist_kernel_eq_skeleton]; unfold cc0__cdist_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _), View.canon_unit_zero zeros2]
  simp only [View.readAt_eq_ld, View.ld_unit_zero (S := S512x1024) zeros2, View.ld_unit_zero (S := S1280x1024) zeros2,
    View.ld_unit_zero (S := S1x1280) zeros2]

end Cert.Kernel.Hand

end
-- ==== Proof.FrameKernel.lean ====
/-
  The word-level program's frame: it runs to the end, faults nowhere, and leaves its two argument arrays unchanged.

  The frame needs nothing of what any staging buffer holds: the body's loads and its one store are whole-buffer
  accesses at fixed offsets, with no branch, address or trip count taken from a loaded word. So the proof data are
  relational and their relations say nothing: at each grid point the body is handed the four current staging buffers at
  arbitrary contents and returns them at some contents. (The center window's last block overhangs its array, so the tail
  of its staging buffer holds words nothing names; nothing here reads them.) The argument arrays are inputs of the
  pipeline, never written back, so they end as the region found them, and no host operation before the region writes them.
-/
import proofs.«100870_j55800215110096_1_alg».proof.Proof.BodyKernel
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; of what the body
    leaves in a staging buffer, nothing; the class's invariant; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, on the four current staging buffers at any contents. -/
theorem sound_body (c : Dev nD) (t : Fin cfg0.N)
    (Y0 : Vec F S512x1024 .f32) (Y1 : Vec F S1280x1024 .f32) (Y2 : Vec F S1x1280 .f32) (Y3 : Vec F S512x1280 .f32) :
    iprop((rdats m c).Φ t.castSucc ∗ (rdats m c).owesAt () t.castSucc
        ∗ owns (c : Thread nD τ) (st0_0 t) fullShare Y0 ∗ owns (c : Thread nD τ) (st0_1 t) fullShare Y1
        ∗ owns (c : Thread nD τ) (st0_2 t) fullShare Y2 ∗ owns (c : Thread nD τ) (st0_3 t) fullShare Y3)
      ⊢ wp frame (wpE (defs₀ (F := F)) Variants.none c none) Set.univ (bodyAt0 t) (fun _ =>
          iprop((rdats m c).Φ t.succ ∗ (rdats m c).owesAt () t.succ
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X) ∗ (∃ X, ⌜True⌝ ∗ owns (c : Thread nD τ) (st0_3 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3⟩
  iapply (sound_kernel c Set.univ (grid0.coords t) _ _ _ _ _ _ _ _ Y0 Y1 Y2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  · iexists _; isplitr; · ipureintro; trivial
    iexact H3

/-- The library's relational body obligation, at every point. -/
theorem body_obligation (c : Dev nD) : (rdats (F := F) m c).BodyObligation (defs₀ (F := F)) Variants.none () Set.univ := fun t Y _ => by
  rw [bigSep_W0, bigSep_W0]
  exact sound_body m c t (Y 0) (Y 1) (Y 2) (Y 3)

set_option backward.isDefEq.respectTransparency.types false in
/-- Every weakly fair execution of @main terminates, faulting nowhere, every array of the pipeline in its relation
    to the region-entry contents and every other unscoped buffer as the region found it. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Pipeline.RDat.FramePost.arr_in h c (0 : Fin 4) rfl).trans (V_main_arg0 m c),
     (Pipeline.RDat.FramePost.arr_in h c (1 : Fin 4) rfl).trans (V_main_arg1 m c)⟩) (run_main m ρ)

end Cert.Kernel.Hand

end
-- ==== Proof.BodyKernelIdeal.lean ====
/-
  The kernel body, run once on whole staging buffers.

  The body loads its three input staging buffers whole, computes one value from them, and stores that value over
  the whole output staging buffer. So whatever the four buffers hold when it starts, it ends with the three inputs'
  buffers unchanged and the output's holding the body's arithmetic applied to the three inputs' contents.
  Nothing here depends on what the contents are: the statement is at any float instance.
-/
import proofs.«100870_j55800215110096_1_alg».proof.Proof.Gen.KernelIdeal.Frame
import proofs.«100870_j55800215110096_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle of the output's staging buffer: the one store goes through it. -/
abbrev rOut : Rect S512x1280 := Rect.unit (s := S512x1280) ![0, 0] S512x1280.size inb_S512x1280_S512x1280_0_0

theorem zeros2 : (![0, 0] : Fin 2 → Nat) = fun _ => 0 := funext fun a => by fin_cases a <;> rfl

/-- One store through the whole-buffer rectangle covers the buffer. -/
theorem cover_out (p0 : Vec F S512x1280 .f32) (y : S512x1280.Idx) :
    ∃ pc ∈ ([⟨rOut, p0⟩] : List (View.Piece (Elt F) S512x1280 .f32)), y ∈ pc.1.set :=
  View.cover_of_tiled [⟨rOut, p0⟩] S512x1280.size (by rfl) y

set_option maxHeartbeats 1000000 in
/-- The body on whole staging memrefs: the inputs' at contents `x0`, `x1`, `x2` and the output's at anything; it
    returns with the inputs' as they were and the output's at the body's value of `x0`, `x1`, `x2`. -/
theorem sound_kernel (c : Dev nD) (E : Set ℕ) (i : grid0.Coords)
    (arg2 : Memref sig .tc .vmem S512x1024 .f32) (harg2 : arg2.IsWhole) (arg3 : Memref sig .tc .vmem S1280x1024 .f32) (harg3 : arg3.IsWhole)
    (arg4 : Memref sig .tc .vmem S1x1280 .f32) (harg4 : arg4.IsWhole) (arg5 : Memref sig .tc .vmem S512x1280 .f32) (harg5 : arg5.IsWhole)
    (x0 : Vec F S512x1024 .f32) (x1 : Vec F S1280x1024 .f32) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x1 x2)) -∗ K ⟨⟩))
      ⊢ wp frame (wpE (defs₀ (F := F)) Variants.none c none) E (cc0__cdist_kernel i arg2 harg2 arg3 harg3 arg4 harg4 arg5 harg5) K := by
  simp only [cc0__cdist_kernel_eq_skeleton]; unfold cc0__cdist_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _), View.canon_unit_zero zeros2]
  simp only [View.readAt_eq_ld, View.ld_unit_zero (S := S512x1024) zeros2, View.ld_unit_zero (S := S1280x1024) zeros2,
    View.ld_unit_zero (S := S1x1280) zeros2]

end Cert.KernelIdeal.Hand

end
-- ==== Proof.Spec.lean ====
/-
  What both programs compute, entry by entry, over the extended reals.

  For a feature row f, a center row c (both of length D) and the center's squared norm s, the logit is
      -1/2 · ((Σ_k f_k² + s) - 2 · Σ_k f_k c_k),
  that is -1/2 · ‖f - c‖² expanded by ‖f‖² + ‖c‖² - 2⟨f, c⟩, the three terms combined in this order. The two
  scalars are the float words of -0.5 and 2.0, kept as words: the same word stands on both sides and is never
  evaluated. The squared norm is the host's sum from the zero word.
-/
import Idealize.ShloMosaic.PureOps.Ideal.Laws
import Idealize.ShloMosaic.Lib.ValueIdx

noncomputable section

namespace Cert.Spec

open Idealize.ShloMosaic Idealize.ShloMosaic.ValueIdx

/-- One logit from a feature row, a center row and that center's squared norm. -/
def entry {D : Nat} (f c : Fin D → EReal) (s : EReal) : EReal :=
  Ideal.ofBits .f32 0xBF000000#32 * (((∑ k, f k * f k) + s) - Ideal.ofBits .f32 0x40000000#32 * ∑ k, f k * c k)

/-- A row's squared norm, as the host sums it: from the zero word. -/
def sqNorm {D : Nat} (c : Fin D → EReal) : EReal :=
  Ideal.ofBits .f32 0x00000000#32 + ∑ k, c k * c k

/-- The logits from the feature matrix, the center matrix and the row of the centers' squared norms. -/
def logitsOf (x0 : (⟨2, ![4096, 1024]⟩ : Shape).Idx → EReal) (x1 : (⟨2, ![10000, 1024]⟩ : Shape).Idx → EReal)
    (s : (⟨2, ![1, 10000]⟩ : Shape).Idx → EReal) : (⟨2, ![4096, 10000]⟩ : Shape).Idx → EReal :=
  fun i => entry (fun k : Fin 1024 => x0 (ix2 (i 0) k)) (fun k : Fin 1024 => x1 (ix2 (i 1) k)) (s (ix2 (0 : Fin 1) (i 1)))

/-- The row of the centers' squared norms. -/
def sqNorms (x1 : (⟨2, ![10000, 1024]⟩ : Shape).Idx → EReal) : (⟨2, ![1, 10000]⟩ : Shape).Idx → EReal :=
  fun j => sqNorm fun k : Fin 1024 => x1 (ix2 (j 1) k)

/-- The logits from the two argument arrays. -/
def logits (x0 : (⟨2, ![4096, 1024]⟩ : Shape).Idx → EReal) (x1 : (⟨2, ![10000, 1024]⟩ : Shape).Idx → EReal) :
    (⟨2, ![4096, 10000]⟩ : Shape).Idx → EReal :=
  logitsOf x0 x1 (sqNorms x1)

end Cert.Spec

end
-- ==== Proof.PayloadIdeal.lean ====
/-
  The kernel body's value, read at one entry, over the extended reals.

  At entry (p, q) of the output block the body's value is the logit of row p of the feature block against row q of the
  center block with that center's squared norm taken from entry (0, q) of the norms' block: the lane sum of the
  squared feature block is a sum over the row, the matrix product into a zero accumulator contracts the two blocks'
  second axes, the changes of float format are the identity, and the two broadcasts read column 0 and row 0.
  So an entry depends on row q of the center block and entry (0, q) of the norms' block, and on no other of theirs.
-/
import proofs.«100870_j55800215110096_1_alg».proof.Proof.Gen.KernelIdeal.Skeleton
import proofs.«100870_j55800215110096_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-! ## The product's operand indices -/

theorem lhs_axis0 (i : S512x1280.Idx) (q : dot_S512x1024_S1280x1024_S512x1280_1_1_0_0_n_n.contr.Idx) :
    (dot_S512x1024_S1280x1024_S512x1280_1_1_0_0_n_n.lhsIdx i q 0).val = (i 0).val := by
  unfold DotDims.lhsIdx
  rw [dif_neg (show ¬(0 : Fin S512x1024.rank) ∈ dot_S512x1024_S1280x1024_S512x1280_1_1_0_0_n_n.lhsBatch by decide), dif_pos (show (0 : Fin S512x1024.rank) ∈ dot_S512x1024_S1280x1024_S512x1280_1_1_0_0_n_n.lhsNonContracting by decide)]
  rfl
theorem lhs_axis1 (i : S512x1280.Idx) (q : dot_S512x1024_S1280x1024_S512x1280_1_1_0_0_n_n.contr.Idx) :
    (dot_S512x1024_S1280x1024_S512x1280_1_1_0_0_n_n.lhsIdx i q 1).val = (q ⟨0, by decide⟩).val :=
  dot_S512x1024_S1280x1024_S512x1280_1_1_0_0_n_n.lhsIdx_val_of_single rfl i q
theorem rhs_axis0 (i : S512x1280.Idx) (q : dot_S512x1024_S1280x1024_S512x1280_1_1_0_0_n_n.contr.Idx) :
    (dot_S512x1024_S1280x1024_S512x1280_1_1_0_0_n_n.rhsIdx i q 0).val = (i 1).val := by
  unfold DotDims.rhsIdx
  rw [dif_neg (show ¬(0 : Fin S1280x1024.rank) ∈ dot_S512x1024_S1280x1024_S512x1280_1_1_0_0_n_n.rhsBatch by decide), dif_pos (show (0 : Fin S1280x1024.rank) ∈ dot_S512x1024_S1280x1024_S512x1280_1_1_0_0_n_n.rhsNonContracting by decide)]
  rfl
theorem rhs_axis1 (i : S512x1280.Idx) (q : dot_S512x1024_S1280x1024_S512x1280_1_1_0_0_n_n.contr.Idx) :
    (dot_S512x1024_S1280x1024_S512x1280_1_1_0_0_n_n.rhsIdx i q 1).val = (q ⟨0, by decide⟩).val :=
  dot_S512x1024_S1280x1024_S512x1280_1_1_0_0_n_n.rhsIdx_val_of_single rfl i q

/-- The product of a [512, 1024] block with the transpose of a [1280, 1024] block, into zero, at (p, q): the sum over
    the shared axis of row p of the one times row q of the other. -/
theorem cross_apply {φ₁ φ₂ : FTy} (l : FVec Ideal S512x1024 φ₁) (r : FVec Ideal S1280x1024 φ₂) (p : Fin 512) (q : Fin 1280) :
    matmul dot_S512x1024_S1280x1024_S512x1280_1_1_0_0_n_n none l r (constant (F := Ideal) S512x1280 .f32 0x00000000#32) (ix2 p q)
      = ∑ k : Fin 1024, (l (ix2 p k) : EReal) * (r (ix2 q k) : EReal) := by
  refine (Ideal.matmul_constant_zero_apply dot_S512x1024_S1280x1024_S512x1280_1_1_0_0_n_n none l r (ix2 p q)).trans ?_
  rw [← Equiv.sum_comp (contrEquiv1 dot_S512x1024_S1280x1024_S512x1280_1_1_0_0_n_n 1024 rfl rfl).symm]
  refine Finset.sum_congr rfl fun k _ => ?_
  have hk := contrEquiv1_symm_val dot_S512x1024_S1280x1024_S512x1280_1_1_0_0_n_n 1024 rfl rfl k
  have el : dot_S512x1024_S1280x1024_S512x1280_1_1_0_0_n_n.lhsIdx (ix2 p q) ((contrEquiv1 dot_S512x1024_S1280x1024_S512x1280_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1280x1024_S512x1280_1_1_0_0_n_n.rhsIdx (ix2 p q) ((contrEquiv1 dot_S512x1024_S1280x1024_S512x1280_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The layout operations of the body -/

/-- A length-512 vector recast as a column and broadcast along the rows reads, at (p, q), the vector at p. -/
theorem colBroadcast_apply {α : Type} (v : S512.Idx → α) (p : Fin 512) (q : Fin 1280) :
    broadcastTo S512x1280 (shapeCast S512x1 v shapeCasts_S512_S512x1) broadcasts_S512x1_S512x1280 (ix2 p q) = v (ix1 p) := by
  rw [broadcastTo_apply (shapeCast S512x1 v shapeCasts_S512_S512x1) broadcasts_S512x1_S512x1280 (ix2 p q) (ix2 p (0 : Fin 1)) (fun a => by
    match a with
    | ⟨0, _⟩ => show p.val = if (512 : Nat) = 1 then 0 else p.val; rw [if_neg (by decide)]
    | ⟨1, _⟩ => show (0 : Nat) = if (1 : Nat) = 1 then 0 else _; rw [if_pos rfl])]
  exact shapeCast_apply v shapeCasts_S512_S512x1 (ix2 p (0 : Fin 1)) (ix1 p) (by
    rw [Shape.rowMajor_val_one, Shape.rowMajor_val_two]
    show p.val = p.val * 1 + 0
    omega)

/-- A one-row block broadcast down the rows reads, at (p, q), the row at q. -/
theorem rowBroadcast_apply {α : Type} (x : S1x1280.Idx → α) (p : Fin 512) (q : Fin 1280) :
    broadcastTo S512x1280 (shapeCast S1x1280 x shapeCasts_S1x1280_S1x1280) broadcasts_S1x1280_S512x1280 (ix2 p q) = x (ix2 (0 : Fin 1) q) := by
  rw [shapeCast_self]
  exact broadcastTo_apply x broadcasts_S1x1280_S512x1280 (ix2 p q) (ix2 (0 : Fin 1) q) (fun a => by
    match a with
    | ⟨0, _⟩ => show (0 : Nat) = if (1 : Nat) = 1 then 0 else _; rw [if_pos rfl]
    | ⟨1, _⟩ => show q.val = if (1280 : Nat) = 1 then 0 else q.val; rw [if_neg (by decide)])

/-- The lane sum of a [512, 1024] block at row p. -/
theorem rowSum_apply (y : FVec Ideal S512x1024 .f32) (p : Fin 512) :
    multiReduction (F := Ideal) .add [1] S512 y 0x00000000#32 reduces_S512x1024_S512 (.inl rfl) rfl (ix1 p) = ∑ k : Fin 1024, (y (ix2 p k) : EReal) := by
  refine (Ideal.multiReduction_add_single y 0x00000000#32 reduces_S512x1024_S512 (.inl rfl) rfl (ix1 p)).trans ?_
  refine Finset.sum_congr rfl fun k _ => congrArg y (funext fun a => Fin.ext ?_)
  match a with
  | ⟨0, _⟩ => rfl
  | ⟨1, _⟩ => rfl

/-! ## The body's value at an entry -/

theorem pay_apply (x0 : Vec Ideal S512x1024 .f32) (x1 : Vec Ideal S1280x1024 .f32) (x2 : Vec Ideal S1x1280 .f32) (p : Fin 512) (q : Fin 1280) :
    k0_pay1 (F := Ideal) x0 x1 x2 (ix2 p q)
      = Cert.Spec.entry (fun k : Fin 1024 => x0 (ix2 p k)) (fun k : Fin 1024 => x1 (ix2 q k)) (x2 (ix2 (0 : Fin 1) q)) := by
  unfold k0_pay1 Cert.Spec.entry
  simp only [mulf_apply, subf_apply, addf_apply, broadcast_apply]
  rw [colBroadcast_apply, rowBroadcast_apply, rowSum_apply, cross_apply]
  rfl

end Cert.KernelIdeal.Hand

end
-- ==== Proof.RunKernelIdeal.lean ====
/-
  The idealized kernel's run, with what each staging buffer holds named.

  At grid point t = (i, j) the pipeline hands the body block i of the features (512 rows), block j of the centers
  (1280 rows) and block j of the row of squared norms (1280 entries); the body stores one [512, 1280] block of logits,
  which the pipeline writes back as block (i, j) of the result. The last blocks along the centers' axis overhang the
  arrays (10000 = 7 · 1280 + 1040): there the fetch fills only the first 1040 rows (entries) of the staging buffer and
  the rest holds values nothing names, and the write-back writes only the first 1040 columns of the output block.
  So the proof data name each buffer's contents on the part the transfers move, completed by zeros elsewhere, and
  the body obligation is stated on the moved part only. That suffices because an output entry (p, q) depends on row q
  of the center block and entry q of the norms alone, and a column q that is written back is a row (entry) q that was
  fetched: the three windows are cut at the same place.
-/
import proofs.«100870_j55800215110096_1_alg».proof.Proof.BodyKernelIdeal
import proofs.«100870_j55800215110096_1_alg».proof.Proof.PayloadIdeal
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Where the three clipped windows are cut -/

/-- The output's columns are cut where the centers' rows are, -/
theorem xsize_out_cols (i : grid0.Coords) : win0_3.xsize i 1 = win0_1.xsize i 0 := rfl
/-- and so are the norms' entries; -/
theorem xsize_norm_cols (i : grid0.Coords) : win0_2.xsize i 1 = win0_1.xsize i 0 := rfl
/-- the centers' columns and the norms' one row are never cut. -/
theorem xsize_cen_cols (i : grid0.Coords) : win0_1.xsize i 1 = 1024 := rfl
theorem xsize_norm_rows (i : grid0.Coords) : win0_2.xsize i 0 = 1 := rfl

/-- Two completions of one fetched part agree wherever the transfer moved the entry. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The written-back part of the body's value does not depend on how the centers' and the norms' buffers are completed
    past the fetched part. -/
theorem out_cut_congr (i : grid0.Coords) (b0 : Vec Ideal S512x1024 .f32)
    (d1 d1' : S1280x1024.Idx → EReal) (g1 : (win0_1.xblock i).Idx → EReal)
    (d2 d2' : S1x1280.Idx → EReal) (g2 : (win0_2.xblock i).Idx → EReal) :
    win0_3.cut i (k0_pay1 (F := Ideal) b0 (win0_1.fill i d1 g1) (win0_2.fill i d2 g2))
      = win0_3.cut i (k0_pay1 (F := Ideal) b0 (win0_1.fill i d1' g1) (win0_2.fill i d2' g2)) := by
  funext y
  show k0_pay1 (F := Ideal) b0 (win0_1.fill i d1 g1) (win0_2.fill i d2 g2) (win0_3.xinj i y)
    = k0_pay1 (F := Ideal) b0 (win0_1.fill i d1' g1) (win0_2.fill i d2' g2) (win0_3.xinj i y)
  obtain ⟨p, q, hq, e⟩ : ∃ (p : Fin 512) (q : Fin 1280), q.val < win0_1.xsize i 0 ∧ win0_3.xinj i y = ix2 p q :=
    ⟨win0_3.xinj i y 0, win0_3.xinj i y 1, (y 1).isLt, eq_ix2 _⟩
  rw [e, pay_apply, pay_apply]
  have h1 : ∀ k : Fin 1024, win0_1.moved i (ix2 q k) = true := fun k => (win0_1.moved_iff i _).mpr fun a => by
    match a with
    | ⟨0, _⟩ => exact hq
    | ⟨1, _⟩ => exact k.isLt
  have h2 : win0_2.moved i (ix2 (0 : Fin 1) q) = true := (win0_2.moved_iff i _).mpr fun a => by
    match a with
    | ⟨0, _⟩ => exact Nat.one_pos
    | ⟨1, _⟩ => exact hq
  have e1 : (fun k : Fin 1024 => win0_1.fill i d1 g1 (ix2 q k)) = fun k : Fin 1024 => win0_1.fill i d1' g1 (ix2 q k) :=
    funext fun k => fill_eq_of_moved win0_1 i d1 d1' g1 (h1 k)
  rw [e1, fill_eq_of_moved win0_2 i d2 d2' g2 h2]

/-! ## The proof data -/

/-- The feature block at point `t`. -/
abbrev featBlk (c : Dev nD) (t : Fin cfg0.N) : Vec Ideal S512x1024 .f32 := iblk m c 0 t
/-- The center block at point `t`: the fetched rows, zeros past the array's end. -/
def cenBlk (c : Dev nD) (t : Fin cfg0.N) : Vec Ideal S1280x1024 .f32 :=
  win0_1.fill (grid0.coords t) (fun _ => (0 : EReal)) (iblk m c 1 t)
/-- The norms' block at point `t`: the fetched entries, zeros past the array's end. -/
def normBlk (c : Dev nD) (t : Fin cfg0.N) : Vec Ideal S1x1280 .f32 :=
  win0_2.fill (grid0.coords t) (fun _ => (0 : EReal)) (iblk m c 2 t)
/-- The logits' block the body computes from them. -/
def outBlk (c : Dev nD) (t : Fin cfg0.N) : Vec Ideal S512x1280 .f32 :=
  k0_pay1 (F := Ideal) (featBlk m c t) (cenBlk m c t) (normBlk m c t)

/-- The proof data of the one pipeline on core `c`: the arrays as the region finds them; after the body at point `t`
    the four staging buffers at the four blocks above; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => featBlk m c t
    | ⟨1, _⟩ => cenBlk m c t
    | ⟨2, _⟩ => normBlk m c t
    | ⟨3, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = featBlk m c t := by dsimp only [dats]
theorem after0_1 (c : Dev nD) (t : Fin cfg0.N) : (dats m 0 c).after 1 t = cenBlk m c t := by dsimp only [dats]
theorem after0_2 (c : Dev nD) (t : Fin cfg0.N) : (dats m 0 c).after 2 t = normBlk m c t := by dsimp only [dats]
theorem after0_3 (c : Dev nD) (t : Fin cfg0.N) : (dats m 0 c).after 3 t = outBlk m c t := by dsimp only [dats]

/-- The features' buffer holds the feature block at every point, fetched there or not. -/
theorem before0_0 (c : Dev nD) (t : Fin cfg0.N) (d) : (dats m 0 c).before 0 t d = featBlk m c t :=
  before0_0_of m (dats m 0 c) (A_eq m c 0) (after0_0 m c) t d
/-- The centers' buffer is fetched at every point: the block on the fetched rows, `d` elsewhere. -/
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]
/-- The norms' likewise. -/
theorem before0_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk; rw [A_eq]

/-! ## The body obligation -/

/-- The body at any point: called with the features' buffer at its block, the two clipped inputs' just fetched, the
    output's at anything; it returns the inputs' as they were and the output's at the body's value, which on the
    written-back columns is `outBlk`'s. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare (win0_1.fill (grid0.coords t) d (win0_1.cut (grid0.coords t) ((dats m 0 c).after 1 t))))
            ∗ (∃ d, owns (c : Thread nD τ) (st0_2 t) fullShare (win0_2.fill (grid0.coords t) d (win0_2.cut (grid0.coords t) ((dats m 0 c).after 2 t))))
            ∗ (∃ d, owns (c : Thread nD τ) (st0_3 t) fullShare (win0_3.fill (grid0.coords t) d (win0_3.cut (grid0.coords t) ((dats m 0 c).after 3 t)))))) := by
  unfold bodyAt0
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel (F := Ideal) c Set.univ (grid0.coords t) _ _ _ _ _ _ _ _ (featBlk m c t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    unfold cenBlk; rw [Window.cut_fill]
    iexact H1
  isplitl [H2]
  · iexists d2
    unfold normBlk; rw [Window.cut_fill]
    iexact H2
  · iexists k0_pay1 (F := Ideal) (featBlk m c t) (win0_1.fill (grid0.coords t) d1 (iblk m c 1 t)) (win0_2.fill (grid0.coords t) d2 (iblk m c 2 t))
    unfold outBlk cenBlk normBlk
    rw [Window.fill_congr_cut win0_3 (grid0.coords t) (out_cut_congr (grid0.coords t) (featBlk m c t) d1 _ (iblk m c 1 t) d2 _ (iblk m c 2 t))]
    iexact H3

/-- The library's body obligation in its loose form, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, faulting nowhere, every array of the pipeline at what the
    library computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the two argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.ValueKernelIdeal.lean ====
/-
  The idealized kernel's result array, as one function of the two argument arrays.

  Three steps. (1) The row of squared norms the region is launched with is the host's: the centers squared entry by
  entry, summed along each row from the zero word, laid out as a column and transposed to a row. (2) What grid point
  t = (i, j) writes back is block (i, j) of the logits computed from the arrays as the region finds them: output entry
  (p, q) of the block reads feature row 512 i + p, center row 1280 j + q and norm entry 1280 j + q, and these are the
  rows the three input blocks hold at p and q. (3) The output's blocks cover the result array: index (b, n) lies in the
  block of the point (b / 512, n / 1280), whose columns reach to 10000 at the last block. Hence the array ends holding
  the logits everywhere.
-/
import proofs.«100870_j55800215110096_1_alg».proof.Proof.RunKernelIdeal
import proofs.«100870_j55800215110096_1_alg».proof.Proof.LibPlainDot
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The row of squared norms the region finds -/

/-- The host's squared norms of a centers' matrix, laid out as a row: the specification's row. -/
theorem norms_row (x1 : FVec Ideal S10000x1024 .f32) :
    transpose S1x10000 [1, 0] (broadcastInDim S10000x1 ![0] bcast_S10000_S10000x1_0
        (Host.reduceAdd (F := Ideal) (mulf x1 x1) (constant (F := Ideal) S_ .f32 0x00000000#32) reducesTo_S10000x1024_S10000_d1 h_S_))
      transposes_S10000x1_S1x10000_1_0 = Cert.Spec.sqNorms x1 := by
  funext j
  obtain ⟨n, rfl⟩ : ∃ n : Fin 10000, j = ix2 (0 : Fin 1) n := ⟨j 1, by
    have h0 : j 0 = (0 : Fin 1) := Fin.ext (by have := idx2_lt0 j; show (j 0).val = 0; omega)
    rw [← h0]; exact eq_ix2 j⟩
  rw [Cert.LibPlainDot.transpose2_apply]
  rw [broadcastInDim_apply ![0] bcast_S10000_S10000x1_0 _ (ix2 n (0 : Fin 1)) (ix1 n) (fun a => by
    match a with
    | ⟨0, _⟩ => show n.val = if (10000 : Nat) = 1 then 0 else n.val; rw [if_neg (by decide)])]
  simp only [Host.reduceAdd, Ideal.hostReduceAdd_def]
  rw [Ideal.hostReduceAdd_single reducesTo_S10000x1024_S10000_d1 (by decide)]
  unfold Cert.Spec.sqNorms Cert.Spec.sqNorm
  refine congrArg₂ (· + ·) rfl (Finset.sum_congr rfl fun k _ => ?_)
  rw [mulf_apply]
  have ei : ∀ h : S10000x1024.Reduces [1] S10000, h.lift (ix1 n) k = ix2 n k := fun h =>
    funext fun a => Fin.ext (by match a with | ⟨0, _⟩ => rfl | ⟨1, _⟩ => rfl)
  rw [ei]
  rfl

/-- The row of squared norms the region is launched with is the specification's, of the centers as launched. -/
theorem norms_eq (c : Dev nD) :
    (V m c main_v3 : S1x10000.Idx → EReal) = Cert.Spec.sqNorms (m ((c : Thread nD τ).loc main_arg1)) := by
  have e : (V m c main_v3 : S1x10000.Idx → EReal)
      = transpose S1x10000 [1, 0] (broadcastInDim S10000x1 ![0] bcast_S10000_S10000x1_0
          (Host.reduceAdd (F := Ideal) (mulf (m ((c : Thread nD τ).loc main_arg1)) (m ((c : Thread nD τ).loc main_arg1)))
            (constant (F := Ideal) S_ .f32 0x00000000#32) reducesTo_S10000x1024_S10000_d1 h_S_)) transposes_S10000x1_S1x10000_1_0 := by
    dsimp only [Gen.V, Gen.hostOps0]; after_results
  exact e.trans (norms_row _)

/-! ## The input blocks' entries as array entries -/

/-- Where each window's block at point `t` sits: the point is (t / 8, t % 8); the features' and the output's row blocks
    follow the first coordinate, the centers', the norms' and the output's column blocks the second. -/
theorem idx_facts : ∀ t : Fin cfg0.N,
    win0_3.index t 0 = t.val / 8 ∧ win0_3.index t 1 = t.val % 8
    ∧ win0_0.index t 0 = t.val / 8 ∧ win0_0.index t 1 = 0
    ∧ win0_1.index t 0 = t.val % 8 ∧ win0_1.index t 1 = 0
    ∧ win0_2.index t 0 = 0 ∧ win0_2.index t 1 = t.val % 8 :=
  (by decide +kernel : ∀ t : Fin grid0.N, _)

/-- Row `p` of the feature block is row `512 (t / 8) + p` of the features. -/
theorem feat_entry (c : Dev nD) (t : Fin cfg0.N) (p : Fin 512) (k : Fin 1024) (b : Fin 4096) (hb : b.val = t.val / 8 * 512 + p.val) :
    featBlk m c t (ix2 p k) = V m c main_arg0 (ix2 b k) := by
  obtain ⟨-, -, e0, e1, -⟩ := idx_facts t
  show V m c main_arg0 (((cfg0.win 0).blk t).view.emb (ix2 p k)) = V m c main_arg0 (ix2 b k)
  refine congrArg _ (funext fun a => Fin.ext ?_)
  match a with
  | ⟨0, _⟩ => show win0_0.index t 0 * 512 + 1 * p.val = b.val; omega
  | ⟨1, _⟩ => show win0_0.index t 1 * 1024 + 1 * k.val = k.val; omega

/-- A fetched row `q` of the center block is row `1280 (t % 8) + q` of the centers. -/
theorem cen_entry (c : Dev nD) (t : Fin cfg0.N) (q : Fin 1280) (hq : q.val < win0_1.xsize (grid0.coords t) 0) (k : Fin 1024)
    (n : Fin 10000) (hn : n.val = t.val % 8 * 1280 + q.val) :
    cenBlk m c t (ix2 q k) = V m c main_arg1 (ix2 n k) := by
  obtain ⟨-, -, -, -, e0, e1, -⟩ := idx_facts t
  have hm : win0_1.moved (grid0.coords t) (ix2 q k) = true := (win0_1.moved_iff _ _).mpr fun a => by
    match a with
    | ⟨0, _⟩ => exact hq
    | ⟨1, _⟩ => exact k.isLt
  unfold cenBlk Window.fill
  rw [dif_pos hm]
  show V m c main_arg1 (((cfg0.win 1).blk t).view.emb _) = V m c main_arg1 (ix2 n k)
  refine congrArg _ (funext fun a => Fin.ext ?_)
  match a with
  | ⟨0, _⟩ => show win0_1.index t 0 * 1280 + 1 * q.val = n.val; omega
  | ⟨1, _⟩ => show win0_1.index t 1 * 1024 + 1 * k.val = k.val; omega

/-- A fetched entry `q` of the norms' block is entry `1280 (t % 8) + q` of the norms' row. -/
theorem norm_entry (c : Dev nD) (t : Fin cfg0.N) (q : Fin 1280) (hq : q.val < win0_1.xsize (grid0.coords t) 0)
    (n : Fin 10000) (hn : n.val = t.val % 8 * 1280 + q.val) :
    normBlk m c t (ix2 (0 : Fin 1) q) = V m c main_v3 (ix2 (0 : Fin 1) n) := by
  obtain ⟨-, -, -, -, -, -, e0, e1⟩ := idx_facts t
  have hm : win0_2.moved (grid0.coords t) (ix2 (0 : Fin 1) q) = true := (win0_2.moved_iff _ _).mpr fun a => by
    match a with
    | ⟨0, _⟩ => exact Nat.one_pos
    | ⟨1, _⟩ => exact hq
  unfold normBlk Window.fill
  rw [dif_pos hm]
  show V m c main_v3 (((cfg0.win 2).blk t).view.emb _) = V m c main_v3 (ix2 (0 : Fin 1) n)
  refine congrArg _ (funext fun a => Fin.ext ?_)
  match a with
  | ⟨0, _⟩ => show win0_2.index t 0 * 1 + 1 * 0 = 0; omega
  | ⟨1, _⟩ => show win0_2.index t 1 * 1280 + 1 * q.val = n.val; omega

/-! ## What a point writes back -/

/-- The logits from the arrays as the region finds them. -/
abbrev regionLogits (c : Dev nD) : S4096x10000.Idx → EReal :=
  Cert.Spec.logitsOf (V m c main_arg0) (V m c main_arg1) (V m c main_v3)

/-- Point `t` writes back block `t` of those logits. -/
theorem flushed_eq (c : Dev nD) (t : Fin cfg0.N) :
    (dats m 0 c).flushed 3 t = ((cfg0.win 3).blk t).view.read (Elt Ideal) (regionLogits m c) := by
  show (cfg0.win 3).cut (grid0.coords t) ((dats m 0 c).after 3 t) = _
  rw [after0_3]
  obtain ⟨e0, e1, -⟩ := idx_facts t
  funext y
  show outBlk m c t (win0_3.xinj (grid0.coords t) y) = regionLogits m c (((cfg0.win 3).blk t).view.emb y)
  obtain ⟨p, q, hp, hq', hq, e⟩ : ∃ (p : Fin 512) (q : Fin 1280), p.val = (y 0).val ∧ q.val = (y 1).val
      ∧ q.val < win0_1.xsize (grid0.coords t) 0 ∧ win0_3.xinj (grid0.coords t) y = ix2 p q :=
    ⟨win0_3.xinj (grid0.coords t) y 0, win0_3.xinj (grid0.coords t) y 1, rfl, rfl, (y 1).isLt, eq_ix2 _⟩
  have hb : ((((cfg0.win 3).blk t).view.emb y) 0).val = t.val / 8 * 512 + p.val := by
    show win0_3.index t 0 * 512 + 1 * (y 0).val = _; omega
  have hn : ((((cfg0.win 3).blk t).view.emb y) 1).val = t.val % 8 * 1280 + q.val := by
    show win0_3.index t 1 * 1280 + 1 * (y 1).val = _; omega
  rw [e]
  unfold outBlk
  rw [pay_apply]
  show _ = Cert.Spec.entry _ _ _
  rw [show (fun k : Fin 1024 => featBlk m c t (ix2 p k)) = fun k : Fin 1024 => V m c main_arg0 (ix2 ((((cfg0.win 3).blk t).view.emb y) 0) k) from
      funext fun k => feat_entry m c t p k _ hb,
    show (fun k : Fin 1024 => cenBlk m c t (ix2 q k)) = fun k : Fin 1024 => V m c main_arg1 (ix2 ((((cfg0.win 3).blk t).view.emb y) 1) k) from
      funext fun k => cen_entry m c t q hq k _ hn,
    norm_entry m c t q hq _ hn]

/-! ## The output's blocks cover the result -/

/-- An index of the result is in point `t`'s block iff each coordinate is in the block's range cut at the array's end. -/
theorem mem_blk (t : Fin cfg0.N) (i : S4096x10000.Idx) :
    i ∈ ((cfg0.win 3).blk t).view.set ↔ ∀ a : Fin 2, win0_3.index t a * S512x1280.size a ≤ (i a).val
      ∧ (i a).val < win0_3.index t a * S512x1280.size a + win0_3.xsize (grid0.coords t) a := by
  show i ∈ ((View.whole main_v4).slice (win0_3.rect t)).set ↔ _
  rw [View.set_slice_whole, Rect.mem_set_unit]
  exact Iff.rfl

/-- The written-back part of the output block: all 512 rows; 1280 columns, or what is left of the 10000 at the last block. -/
theorem xsize_facts : ∀ t : Fin cfg0.N, win0_3.xsize (grid0.coords t) 0 = 512
    ∧ win0_3.xsize (grid0.coords t) 1 = (if (t.val % 8 + 1) * 1280 ≤ 10000 then 1280 else 10000 - t.val % 8 * 1280) :=
  (by decide +kernel : ∀ t : Fin grid0.N, _)

theorem cover (i : S4096x10000.Idx) : ∃ t : Fin cfg0.N, (cfg0.win 3).flush t = true ∧ i ∈ ((cfg0.win 3).blk t).view.set := by
  have hi0 : (i 0).val < 4096 := idx2_lt0 i
  have hi1 : (i 1).val < 10000 := idx2_lt1 i
  have hN : cfg0.N = 64 := N_0
  obtain ⟨t, ht⟩ : ∃ t : Fin cfg0.N, t.val = (i 0).val / 512 * 8 + (i 1).val / 1280 :=
    ⟨⟨(i 0).val / 512 * 8 + (i 1).val / 1280, by omega⟩, rfl⟩
  refine ⟨t, flush0_3 t, ?_⟩
  rw [mem_blk]
  obtain ⟨e0, e1, -⟩ := idx_facts t
  obtain ⟨x0, x1⟩ := xsize_facts t
  intro a
  match a with
  | ⟨0, _⟩ =>
    show win0_3.index t 0 * 512 ≤ (i 0).val ∧ (i 0).val < win0_3.index t 0 * 512 + win0_3.xsize (grid0.coords t) 0
    rw [x0, e0]; omega
  | ⟨1, _⟩ =>
    show win0_3.index t 1 * 1280 ≤ (i 1).val ∧ (i 1).val < win0_3.index t 1 * 1280 + win0_3.xsize (grid0.coords t) 1
    rw [x1, e1]; split <;> omega

/-! ## The result array, and the run -/

/-- After the run the result array holds the logits of the two argument arrays. -/
theorem final (c : Dev nD) : (dats m 0 c).arrAt 3 cfg0.N
    = Cert.Spec.logits (m ((c : Thread nD τ).loc main_arg0)) (m ((c : Thread nD τ).loc main_arg1)) := by
  rw [(dats m 0 c).arrAt_eq_of_cover 3 (regionLogits m c) (fun t _ => flushed_eq m c t) cover]
  show Cert.Spec.logitsOf (V m c main_arg0) (V m c main_arg1) (V m c main_v3) = _
  rw [V_main_arg0, V_main_arg1, norms_eq]
  rfl

/-- Every weakly fair execution of the idealized kernel's @main terminates with the result array at the logits of the
    two argument arrays, and those unchanged. -/
theorem run : θ_run defs (onTc (τ := τ) (main (F := Ideal))) ⟨m, fun _ => 0, ρ⟩ fun r => ∀ c : Dev nD,
      r.2.mem ((c.tc : Thread nD τ).loc main_v4) = Cert.Spec.logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefIsSpec.lean ====
/-
  The reference's result is the specification's logits.

  Read one operation at a time, the reference's last stage at index (b, n) is
      -1/2 · (((0 + Σ_k x0(b,k)²) + (0 + Σ_k x1(n,k)²)) - 2 · Σ_k x0(b,k) x1(n,k)),
  the two broadcasts reading row b of the features' norms and entry n of the centers' norms. The zero in front of the
  features' sum is the host sum's initial value, the zero word, which adds nothing.
-/
import proofs.«100870_j55800215110096_1_alg».proof.Proof.Gen.ReferenceIdeal.Read
import proofs.«100870_j55800215110096_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The features' norm at output index `i` sums row `i 0`. -/
theorem featRow (i : S4096x10000.Idx) (k : Fin 1024) : idx_main_v1 (idx_main_v2 (idx_main_v7 i)) k = ix2 (i 0) k :=
  funext fun a => Fin.ext (by match a with | ⟨0, _⟩ => rfl | ⟨1, _⟩ => rfl)
/-- The centers' norm at output index `i` sums row `i 1`. -/
theorem cenRow (i : S4096x10000.Idx) (k : Fin 1024) : idx_main_v4 (idx_main_v5 (idx_main_v8 i)) k = ix2 (i 1) k :=
  funext fun a => Fin.ext (by match a with | ⟨0, _⟩ => rfl | ⟨1, _⟩ => rfl)
/-- The product's left factor is the features' row `i 0`, -/
theorem dotL (i : S4096x10000.Idx) (k : Fin 1024) : lidx_main_v6 i k = ix2 (i 0) k :=
  funext fun a => Fin.ext (by match a with | ⟨0, _⟩ => rfl | ⟨1, _⟩ => rfl)
/-- its right factor the centers' row `i 1`. -/
theorem dotR (i : S4096x10000.Idx) (k : Fin 1024) : ridx_main_v6 i k = ix2 (i 1) k :=
  funext fun a => Fin.ext (by match a with | ⟨0, _⟩ => rfl | ⟨1, _⟩ => rfl)

theorem ref_eq (x0 : (⟨S4096x1024, .f32⟩ : BufTy).Contents (Elt Ideal)) (x1 : (⟨S10000x1024, .f32⟩ : BufTy).Contents (Elt Ideal)) :
    val_main_v14 (F := Ideal) x0 x1 = Cert.Spec.logits x0 x1 := by
  funext i
  rw [val_main_v14_apply, val_main_v13_apply, val_main_cst_2_apply, val_main_v12_apply, val_main_v9_apply, val_main_v7_apply,
    val_main_v2_apply, val_main_v1_apply, val_main_v8_apply, val_main_v5_apply, val_main_v4_apply, val_main_v11_apply,
    val_main_v10_apply, val_main_cst_1_apply, val_main_v6_apply]
  simp only [val_main_v0_apply, val_main_v3_apply, val_main_cst_apply, val_main_cst_0_apply, featRow, cenRow, dotL, dotR,
    Ideal.mulf_def, Ideal.addf_def, Ideal.subf_def, Ideal.ofBits_def]
  unfold Cert.Spec.logits Cert.Spec.logitsOf Cert.Spec.sqNorms Cert.Spec.sqNorm Cert.Spec.entry
  simp only [Ideal.ofBits_zero_f32, zero_add]
  rfl

end Cert.ReferenceIdeal.RefValue

end
-- ==== Proof.lean ====
/-
  The claim: the kernel computing logits  -1/2 · ‖feat_b - center_n‖²  by the expansion
  ‖f‖² + ‖c‖² - 2⟨f, c⟩  on a grid of [512, 1280] output blocks equals its jnp reference over the extended reals.

  Both programs compute, at (b, n),  -1/2 · ((Σ_k f_k² + Σ_k c_k²) - 2 · Σ_k f_k c_k)  with the same two float words
  for -1/2 and 2 and the operations in the same order; no algebraic law is needed beyond the zero word adding nothing
  to a sum, so the precondition (finite inputs) is not used. The kernel's tiling — eight row blocks of features, eight
  row blocks of centers of which the last overhangs the 10000 centers by 240 rows — changes nothing at an entry: an
  output column written back is a center row fetched.

  The three frames: the word-level kernel's from relational proof data whose relations say nothing (the body's
  accesses are whole buffers at fixed offsets); the idealized kernel's from the exact proof data the value leg uses;
  the reference's from its run with the result dropped. The idealization rewrote no operation, so `preserves` is trivial.
-/
import proofs.«100870_j55800215110096_1_alg».proof.Defs
import proofs.«100870_j55800215110096_1_alg».proof.Proof.FrameKernel
import proofs.«100870_j55800215110096_1_alg».proof.Proof.ValueKernelIdeal
import proofs.«100870_j55800215110096_1_alg».proof.Proof.RefIsSpec
import proofs.«100870_j55800215110096_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the logits of the (agreeing) argument arrays. -/
theorem algebraic : Cert.algebraic_KernelIdeal_ReferenceIdeal := by
  intro m ρ m' ρ' _ hagree
  refine ⟨fun c => Cert.Spec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
